-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16x2048x4096 : Shape := ⟨3, ![16, 2048, 4096]⟩
abbrev S16x2048x2048 : Shape := ⟨3, ![16, 2048, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16x2048x4096 : S_.BroadcastsInDim S16x2048x4096 (![] : Fin 0 → Fin S16x2048x4096.rank)
  reducesTo_S16x2048x4096_S_d0_1_2 : S16x2048x4096.ReducesTo [0, 1, 2] S_
  bcast_S_S16x2048x2048 : S_.BroadcastsInDim S16x2048x2048 (![] : Fin 0 → Fin S16x2048x2048.rank)
  reducesTo_S16x2048x2048_S_d0_1_2 : S16x2048x2048.ReducesTo [0, 1, 2] S_

variable [Facts]

def fn {F : FTy → Type} [FloatOps F] (main_arg0 : FVec F S16384x2048 .f32) (main_arg1 : FVec F S16x2048x4096 .f32) (main_arg2 : FVec F S16x2048x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16x2048x4096 .f32 := Host.absf main_arg1
  let main_cst_0 : FVec F S_ .f32 := constant S_ .f32 0x7F800000#32
  let main_v5 : FVec F S16x2048x4096 .f32 := broadcastInDim S16x2048x4096 ![] bcast_S_S16x2048x4096 main_cst_0
  let main_v6 : IVec S16x2048x4096 1 := cmpf .olt main_v4 main_v5
  let main_c_1 : IVec S_ 1 := constantI S_ 1 1#1
  let main_v7 : IVec S_ 1 := (fun x v => Host.reduce IntOp.andi x v reducesTo_S16x2048x4096_S_d0_1_2 h_S_) main_v6 main_c_1
  let main_v8 : IVec S_ 1 := andi main_v3 main_v7
  let main_v9 : FVec F S16x2048x2048 .f32 := Host.absf main_arg2
  let main_cst_2 : FVec F S_ .f32 := constant S_ .f32 0x7F800000#32
  let main_v10 : FVec F S16x2048x2048 .f32 := broadcastInDim S16x2048x2048 ![] bcast_S_S16x2048x2048 main_cst_2
  let main_v11 : IVec S16x2048x2048 1 := cmpf .olt main_v9 main_v10
  let main_c_3 : IVec S_ 1 := constantI S_ 1 1#1
  let main_v12 : IVec S_ 1 := (fun x v => Host.reduce IntOp.andi x v reducesTo_S16x2048x2048_S_d0_1_2 h_S_) main_v11 main_c_3
  let main_v13 : IVec S_ 1 := andi main_v8 main_v12
  main_v13
-- ==== Kernel.lean ====
abbrev S16384x2048 : Shape := ⟨2, ![16384, 2048]⟩
abbrev S16x2048x4096 : Shape := ⟨3, ![16, 2048, 4096]⟩
abbrev S16x2048x2048 : Shape := ⟨3, ![16, 2048, 2048]⟩
abbrev S16x1024x2048 : Shape := ⟨3, ![16, 1024, 2048]⟩
abbrev S1x128x2048 : Shape := ⟨3, ![1, 128, 2048]⟩
abbrev S1x2048x4096 : Shape := ⟨3, ![1, 2048, 4096]⟩
abbrev S1x2048x2048 : Shape := ⟨3, ![1, 2048, 2048]⟩
abbrev S128x2048 : Shape := ⟨2, ![128, 2048]⟩
abbrev S2048x4096 : Shape := ⟨2, ![2048, 4096]⟩
abbrev S128x4096 : Shape := ⟨2, ![128, 4096]⟩
abbrev S2048x2048 : Shape := ⟨2, ![2048, 2048]⟩

abbrev nBuf : Space → Nat
  | .hbm => 9
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S16x2048x4096, .f32⟩
  | .hbm, ⟨2, _⟩ => ⟨S16x2048x2048, .f32⟩
  | .hbm, ⟨3, _⟩ => ⟨S16x1024x2048, .f32⟩
  | .hbm, ⟨4, _⟩ => ⟨S16x1024x2048, .bf16⟩
  | .hbm, ⟨5, _⟩ => ⟨S16x2048x4096, .bf16⟩
  | .hbm, ⟨6, _⟩ => ⟨S16x2048x2048, .bf16⟩
  | .hbm, ⟨7, _⟩ => ⟨S16x1024x2048, .f32⟩
  | .hbm, ⟨8, _⟩ => ⟨S16384x2048, .f32⟩
  | .local _ .vmem, ⟨0, _⟩ => ⟨S1x128x2048, .bf16⟩
  | .local _ .vmem, ⟨1, _⟩ => ⟨S1x128x2048, .bf16⟩
  | .local _ .vmem, ⟨2, _⟩ => ⟨S1x2048x4096, .bf16⟩
  | .local _ .vmem, ⟨3, _⟩ => ⟨S1x2048x2048, .bf16⟩
  | .local _ .vmem, ⟨4, _⟩ => ⟨S1x128x2048, .f32⟩
  | .local _ .vmem, ⟨5, _⟩ => ⟨S1x128x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S16384x2048_S16x1024x2048 : S16384x2048.ShapeCasts S16x1024x2048
  bitsLt_bf16_f32 : FTy.bits .bf16 < FTy.bits .f32
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  inb_S1x2048x4096_S1x2048x4096_0_0_0 : ∀ a, (![0, 0, 0] : Fin 3 → Nat) a + S1x2048x4096.size a ≤ S1x2048x4096.size a
  h_S1x2048x4096 : 0 < S1x2048x4096.numel
  shapeCasts_S1x2048x4096_S2048x4096 : S1x2048x4096.ShapeCasts S2048x4096
  slices_S128x4096_o0_0_S128x2048 : S128x4096.Slices ![0, 0] S128x2048
  slices_S128x4096_o0_2048_S128x2048 : S128x4096.Slices ![0, 2048] S128x2048
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  shapeCasts_S128x2048_S1x128x2048 : S128x2048.ShapeCasts S1x128x2048
  shapeCasts_S16x1024x2048_S16384x2048 : S16x1024x2048.ShapeCasts S16384x2048
  dot_S128x2048_S2048x4096_S128x4096_1_0_0_1_n_n_wf : DotDims.WF S128x2048 S2048x4096 S128x4096 [1] [0] [0] [1] [] []
  dot_S128x2048_S2048x2048_S128x2048_1_0_0_1_n_n_wf : DotDims.WF S128x2048 S2048x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2048.size a ≤ S16x1024x2048.size a
  hwx0_0 : ∀ i : grid0.Coords, EltTy.bits .bf16 = 32 ∨ (Rect.block (s := S16x1024x2048) S1x128x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x4096.size a ≤ S16x2048x4096.size a
  hwx0_1 : ∀ i : grid0.Coords, EltTy.bits .bf16 = 32 ∨ (Rect.block (s := S16x2048x4096) S1x2048x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048x2048.size a ≤ S16x2048x2048.size a
  hwx0_2 : ∀ i : grid0.Coords, EltTy.bits .bf16 = 32 ∨ (Rect.block (s := S16x2048x2048) S1x2048x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x2048.size a ≤ S16x1024x2048.size a
  hwx0_3 : ∀ i : grid0.Coords, EltTy.bits .f32 = 32 ∨ (Rect.block (s := S16x1024x2048) S1x128x2048.size (cc0_transform_3 i) (hinb0_3 i)).WholeWords (EltTy.packing .f32)

variable [Facts₀]

def dot_S128x2048_S2048x4096_S128x4096_1_0_0_1_n_n : DotDims S128x2048 S2048x4096 S128x4096 where
  lhsContracting := [1]
  rhsContracting := [0]
  lhsNonContracting := [0]
  rhsNonContracting := [1]
  lhsBatch := []
  rhsBatch := []
  wf := dot_S128x2048_S2048x4096_S128x4096_1_0_0_1_n_n_wf
def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf

abbrev win0_0 : Pipeline.Window sig grid0 :=
  Pipeline.Window.ofSpec (Memref.whole main_v1) S1x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x2048x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S16x2048x4096 : Shape := ⟨3, ![16, 2048, 4096]⟩
abbrev S16x2048x2048 : Shape := ⟨3, ![16, 2048, 2048]⟩
abbrev S16x1024x2048 : Shape := ⟨3, ![16, 1024, 2048]⟩
abbrev S16x1024x4096 : Shape := ⟨3, ![16, 1024, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16x2048x4096, .f32⟩
  | .hbm, ⟨2, _⟩ => ⟨S16x2048x2048, .f32⟩
  | .hbm, ⟨3, _⟩ => ⟨S16x1024x2048, .f32⟩
  | .hbm, ⟨4, _⟩ => ⟨S16x1024x4096, .f32⟩
  | .hbm, ⟨5, _⟩ => ⟨S16x1024x2048, .f32⟩
  | .hbm, ⟨6, _⟩ => ⟨S16x1024x2048, .f32⟩
  | .hbm, ⟨7, _⟩ => ⟨S16x1024x2048, .f32⟩
  | .hbm, ⟨8, _⟩ => ⟨S16x1024x2048, .f32⟩
  | .hbm, ⟨9, _⟩ => ⟨S_, .f32⟩
  | .hbm, ⟨10, _⟩ => ⟨S16x1024x2048, .f32⟩
  | .hbm, ⟨11, _⟩ => ⟨S16x1024x2048, .f32⟩
  | .hbm, ⟨12, _⟩ => ⟨S_, .f32⟩
  | .hbm, ⟨13, _⟩ => ⟨S16x1024x2048, .f32⟩
  | .hbm, ⟨14, _⟩ => ⟨S16x1024x2048, .f32⟩
  | .hbm, ⟨15, _⟩ => ⟨S16x1024x2048, .f32⟩
  | .hbm, ⟨16, _⟩ => ⟨S16x1024x2048, .f32⟩
  | .hbm, ⟨17, _⟩ => ⟨S16x1024x2048, .f32⟩
  | .hbm, ⟨18, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]

class Facts₀ : Prop where
  shapeCasts_S16384x2048_S16x1024x2048 : S16384x2048.ShapeCasts S16x1024x2048
  slices_S16x1024x4096_S16x1024x2048_0_0_0 : S16x1024x4096.Slices ![0, 0, 0] S16x1024x2048
  slices_S16x1024x4096_S16x1024x2048_0_0_2048 : S16x1024x4096.Slices ![0, 0, 2048] S16x1024x2048
  bcast_S_S16x1024x2048 : S_.BroadcastsInDim S16x1024x2048 (![] : Fin 0 → Fin S16x1024x2048.rank)
  shapeCasts_S16x1024x2048_S16384x2048 : S16x1024x2048.ShapeCasts S16384x2048
  dot_S16x1024x2048_S16x2048x4096_S16x1024x4096_2_1_1_2_0_0_wf : DotDims.WF S16x1024x2048 S16x2048x4096 S16x1024x4096 [2] [1] [1] [2] [0] [0]
  dot_S16x1024x2048_S16x2048x2048_S16x1024x2048_2_1_1_2_0_0_wf : DotDims.WF S16x1024x2048 S16x2048x2048 S16x1024x2048 [2] [1] [1] [2] [0] [0]

variable [Facts₀]

def dot_S16x1024x2048_S16x2048x4096_S16x1024x4096_2_1_1_2_0_0 : DotDims S16x1024x2048 S16x2048x4096 S16x1024x4096 where
  lhsContracting := [2]
  rhsContracting := [1]
  lhsNonContracting := [1]
  rhsNonContracting := [2]
  lhsBatch := [0]
  rhsBatch := [0]
  wf := dot_S16x1024x2048_S16x2048x4096_S16x1024x4096_2_1_1_2_0_0_wf
def dot_S16x1024x2048_S16x2048x2048_S16x1024x2048_2_1_1_2_0_0 : DotDims S16x1024x2048 S16x2048x2048 S16x1024x2048 where
  lhsContracting := [2]
  rhsContracting := [1]
  lhsNonContracting := [1]
  rhsNonContracting := [2]
  lhsBatch := [0]
  rhsBatch := [0]
  wf := dot_S16x1024x2048_S16x2048x2048_S16x1024x2048_2_1_1_2_0_0_wf

class Facts : Prop extends Facts₀ where

variable [Facts]
-- ==== Proof.ExpertLayer.lean ====
/-
  The expert layer as ONE function of its three arrays, over the extended reals.

  Tokens arrive sorted by expert, so the token array is read as x[e, t, k] (16 experts, 1024 tokens each, 2048
  features). Expert e projects token t to 4096 numbers, p[e, t, f] = Σ_k x[e, t, k] · gu[e, k, f]; the first 2048 are the
  GATE, the last 2048 the UP half. The hidden activation is up · silu(gate) with silu(g) = g · σ(g), σ the logistic
  function 1 / (1 + e^(-g)); and the layer's result is Σ_i h[e, t, i] · dn[e, i, c].

  Nothing here needs the inputs finite: both programs form the same sums of the same products in the same grouping,
  and σ is one function on every extended real however it is spelt (`logistic_eq_expansion`).
-/
import Idealize.ShloMosaic.PureOps.Ideal
import Idealize.ShloMosaic.PureOps.IdealRules
import Idealize.ShloMosaic.Lib.ValueIdx

noncomputable section

open scoped BigOperators

namespace Cert.ExpertLayer

open Idealize.ShloMosaic Idealize.ShloMosaic.ValueIdx

/-- Tokens by expert: [16, 1024, 2048]. -/
abbrev Tok : Shape := ⟨3, ![16, 1024, 2048]⟩
/-- The gate-and-up weights: [16, 2048, 4096]. -/
abbrev WGateUp : Shape := ⟨3, ![16, 2048, 4096]⟩
/-- The down weights: [16, 2048, 2048]. -/
abbrev WDown : Shape := ⟨3, ![16, 2048, 2048]⟩

/-- Column i of the gate half of a projected row. -/
abbrev gateCol (i : Fin 2048) : Fin 4096 := ⟨i.val, by omega⟩
/-- Column i of the up half: 2048 further along. -/
abbrev upCol (i : Fin 2048) : Fin 4096 := ⟨2048 + i.val, by omega⟩

/-- Expert e's projection of its token t, at column f. -/
def proj (x : Tok.Idx → EReal) (gu : WGateUp.Idx → EReal) (e : Fin 16) (t : Fin 1024) (f : Fin 4096) : EReal :=
  ∑ k : Fin 2048, x (ix3 e t k) * gu (ix3 e k f)

/-- The hidden activation up · (gate · σ(gate)). -/
def hidden (x : Tok.Idx → EReal) (gu : WGateUp.Idx → EReal) (e : Fin 16) (t : Fin 1024) (i : Fin 2048) : EReal :=
  proj x gu e t (upCol i) * (proj x gu e t (gateCol i) * Ideal.logistic (proj x gu e t (gateCol i)))

/-- The layer's result, token by token within each expert. -/
def out (x : Tok.Idx → EReal) (gu : WGateUp.Idx → EReal) (dn : WDown.Idx → EReal) : Tok.Idx → EReal :=
  fun j => ∑ i : Fin 2048, hidden x gu (j 0) (j 1) i * dn (ix3 (j 0) i (j 2))

/-- The token array as the programs take it: [16384, 2048], expert e's tokens in rows 1024·e … 1024·e + 1023. -/
abbrev Flat : Shape := ⟨2, ![16384, 2048]⟩

/-- The layer on the flat token array: regroup the rows by expert, apply `out`, flatten again. -/
def layer (hin : Flat.ShapeCasts Tok) (hout : Tok.ShapeCasts Flat) (x : Flat.Idx → EReal) (gu : WGateUp.Idx → EReal)
    (dn : WDown.Idx → EReal) : Flat.Idx → EReal :=
  shapeCast Flat (out (shapeCast Tok x hin) gu dn) hout

/-- The f32 word of 1.0 denotes the extended real 1. -/
theorem one_word : Ideal.ofBits .f32 0x3F800000#32 = 1 := IdealRules.sign_bit.ideal_onePat .f32

/-- σ spelt out with a quotient, a sum, an exponential and a negation is σ, on every extended real. -/
theorem logistic_eq_expansion (g : EReal) :
    Ideal.div 1 (1 + Ideal.exp (-g)) = Ideal.logistic g := rfl

end Cert.ExpertLayer

end
-- ==== Proof.KernelBlock.lean ====
/-
  One grid point of the kernel, as arithmetic on its three loaded blocks.

  The body multiplies the [128, 2048] token block by the expert's [2048, 4096] gate-and-up weights into a zero
  accumulator, splits the product into its gate columns and its up columns, forms up · (gate · σ(gate)), and multiplies that
  by the expert's [2048, 2048] down weights into a zero accumulator. Changes of float format are the identity on the
  extended reals. So the stored block at (0, r, c) is Σ_i h(r, i) · dn(0, i, c), with h(r, i) built from the two
  projections Σ_k x(0, r, k) · gu(0, k, f) at f = i and f = 2048 + i.
-/
import proofs.«131763_j37589553774969_1_alg».proof.Proof.Gen.KernelIdeal.Skeleton
import proofs.«131763_j37589553774969_1_alg».proof.Proof.ExpertLayer
import Idealize.ShloMosaic.Lib.Pipeline.Value
import Idealize.ShloMosaic.Lib.ValueIdx
import Idealize.ShloMosaic.PureOps.Ideal.Laws

noncomputable section

open scoped BigOperators

namespace Cert.KernelIdeal.Layer

open Cert.KernelIdeal Cert.KernelIdeal.Gen Idealize.ShloMosaic Idealize.ShloMosaic.ValueIdx
open Cert.ExpertLayer

/-! ## The two matrix products as sums over the shared axis -/

theorem lhs_first_0 (i : S128x4096.Idx) (q : dot_S128x2048_S2048x4096_S128x4096_1_0_0_1_n_n.contr.Idx) :
    (dot_S128x2048_S2048x4096_S128x4096_1_0_0_1_n_n.lhsIdx i q 0).val = (i 0).val := by
  unfold DotDims.lhsIdx
  rw [dif_neg (show ¬(0 : Fin S128x2048.rank) ∈ dot_S128x2048_S2048x4096_S128x4096_1_0_0_1_n_n.lhsBatch by decide), dif_pos (show (0 : Fin S128x2048.rank) ∈ dot_S128x2048_S2048x4096_S128x4096_1_0_0_1_n_n.lhsNonContracting by decide)]
  rfl
theorem lhs_first_1 (i : S128x4096.Idx) (q : dot_S128x2048_S2048x4096_S128x4096_1_0_0_1_n_n.contr.Idx) :
    (dot_S128x2048_S2048x4096_S128x4096_1_0_0_1_n_n.lhsIdx i q 1).val = (q ⟨0, by decide⟩).val :=
  dot_S128x2048_S2048x4096_S128x4096_1_0_0_1_n_n.lhsIdx_val_of_single rfl i q
theorem rhs_first_0 (i : S128x4096.Idx) (q : dot_S128x2048_S2048x4096_S128x4096_1_0_0_1_n_n.contr.Idx) :
    (dot_S128x2048_S2048x4096_S128x4096_1_0_0_1_n_n.rhsIdx i q 0).val = (q ⟨0, by decide⟩).val :=
  dot_S128x2048_S2048x4096_S128x4096_1_0_0_1_n_n.rhsIdx_val_of_single rfl i q
theorem rhs_first_1 (i : S128x4096.Idx) (q : dot_S128x2048_S2048x4096_S128x4096_1_0_0_1_n_n.contr.Idx) :
    (dot_S128x2048_S2048x4096_S128x4096_1_0_0_1_n_n.rhsIdx i q 1).val = (i 1).val := by
  unfold DotDims.rhsIdx
  rw [dif_neg (show ¬(1 : Fin S2048x4096.rank) ∈ dot_S128x2048_S2048x4096_S128x4096_1_0_0_1_n_n.rhsBatch by decide), dif_pos (show (1 : Fin S2048x4096.rank) ∈ dot_S128x2048_S2048x4096_S128x4096_1_0_0_1_n_n.rhsNonContracting by decide)]
  rfl

/-- The first product into a zero accumulator, at (r, f): the sum over the 2048 features. -/
theorem first_product_apply (a : FVec Ideal S128x2048 .bf16) (b : FVec Ideal S2048x4096 .bf16) (r : Fin 128) (f : Fin 4096) :
    matmul dot_S128x2048_S2048x4096_S128x4096_1_0_0_1_n_n none a b (constant (F := Ideal) S128x4096 .f32 0x00000000#32) (ix2 r f)
      = ∑ k : Fin 2048, a (ix2 r k) * b (ix2 k f) := by
  simp only [matmul]
  rw [Ideal.matmul_constant_zero_apply, ← Equiv.sum_comp (contrEquiv1 dot_S128x2048_S2048x4096_S128x4096_1_0_0_1_n_n 2048 rfl rfl).symm]
  refine Finset.sum_congr rfl fun k _ => ?_
  have hk := contrEquiv1_symm_val dot_S128x2048_S2048x4096_S128x4096_1_0_0_1_n_n 2048 rfl rfl k
  have el : dot_S128x2048_S2048x4096_S128x4096_1_0_0_1_n_n.lhsIdx (ix2 r f) ((contrEquiv1 dot_S128x2048_S2048x4096_S128x4096_1_0_0_1_n_n 2048 rfl rfl).symm k) = ix2 r k := funext fun a => Fin.ext (by
    match a with
    | ⟨0, _⟩ => exact lhs_first_0 _ _
    | ⟨1, _⟩ => exact (lhs_first_1 _ _).trans hk)
  have er : dot_S128x2048_S2048x4096_S128x4096_1_0_0_1_n_n.rhsIdx (ix2 r f) ((contrEquiv1 dot_S128x2048_S2048x4096_S128x4096_1_0_0_1_n_n 2048 rfl rfl).symm k) = ix2 k f := funext fun a => Fin.ext (by
    match a with
    | ⟨0, _⟩ => exact (rhs_first_0 _ _).trans hk
    | ⟨1, _⟩ => exact rhs_first_1 _ _)
  rw [el, er]

theorem lhs_second_0 (i : S128x2048.Idx) (q : dot_S128x2048_S2048x2048_S128x2048_1_0_0_1_n_n.contr.Idx) :
    (dot_S128x2048_S2048x2048_S128x2048_1_0_0_1_n_n.lhsIdx i q 0).val = (i 0).val := by
  unfold DotDims.lhsIdx
  rw [dif_neg (show ¬(0 : Fin S128x2048.rank) ∈ dot_S128x2048_S2048x2048_S128x2048_1_0_0_1_n_n.lhsBatch by decide), dif_pos (show (0 : Fin S128x2048.rank) ∈ dot_S128x2048_S2048x2048_S128x2048_1_0_0_1_n_n.lhsNonContracting by decide)]
  rfl
theorem lhs_second_1 (i : S128x2048.Idx) (q : dot_S128x2048_S2048x2048_S128x2048_1_0_0_1_n_n.contr.Idx) :
    (dot_S128x2048_S2048x2048_S128x2048_1_0_0_1_n_n.lhsIdx i q 1).val = (q ⟨0, by decide⟩).val :=
  dot_S128x2048_S2048x2048_S128x2048_1_0_0_1_n_n.lhsIdx_val_of_single rfl i q
theorem rhs_second_0 (i : S128x2048.Idx) (q : dot_S128x2048_S2048x2048_S128x2048_1_0_0_1_n_n.contr.Idx) :
    (dot_S128x2048_S2048x2048_S128x2048_1_0_0_1_n_n.rhsIdx i q 0).val = (q ⟨0, by decide⟩).val :=
  dot_S128x2048_S2048x2048_S128x2048_1_0_0_1_n_n.rhsIdx_val_of_single rfl i q
theorem rhs_second_1 (i : S128x2048.Idx) (q : dot_S128x2048_S2048x2048_S128x2048_1_0_0_1_n_n.contr.Idx) :
    (dot_S128x2048_S2048x2048_S128x2048_1_0_0_1_n_n.rhsIdx i q 1).val = (i 1).val := by
  unfold DotDims.rhsIdx
  rw [dif_neg (show ¬(1 : Fin S2048x2048.rank) ∈ dot_S128x2048_S2048x2048_S128x2048_1_0_0_1_n_n.rhsBatch by decide), dif_pos (show (1 : Fin S2048x2048.rank) ∈ dot_S128x2048_S2048x2048_S128x2048_1_0_0_1_n_n.rhsNonContracting by decide)]
  rfl

/-- The second product into a zero accumulator, at (r, c): the sum over the 2048 hidden units. -/
theorem second_product_apply (a : FVec Ideal S128x2048 .bf16) (b : FVec Ideal S2048x2048 .bf16) (r : Fin 128) (c : Fin 2048) :
    matmul dot_S128x2048_S2048x2048_S128x2048_1_0_0_1_n_n none a b (constant (F := Ideal) S128x2048 .f32 0x00000000#32) (ix2 r c)
      = ∑ i : Fin 2048, a (ix2 r i) * b (ix2 i c) := by
  simp only [matmul]
  rw [Ideal.matmul_constant_zero_apply, ← Equiv.sum_comp (contrEquiv1 dot_S128x2048_S2048x2048_S128x2048_1_0_0_1_n_n 2048 rfl rfl).symm]
  refine Finset.sum_congr rfl fun k _ => ?_
  have hk := contrEquiv1_symm_val dot_S128x2048_S2048x2048_S128x2048_1_0_0_1_n_n 2048 rfl rfl k
  have el : dot_S128x2048_S2048x2048_S128x2048_1_0_0_1_n_n.lhsIdx (ix2 r c) ((contrEquiv1 dot_S128x2048_S2048x2048_S128x2048_1_0_0_1_n_n 2048 rfl rfl).symm k) = ix2 r k := funext fun a => Fin.ext (by
    match a with
    | ⟨0, _⟩ => exact lhs_second_0 _ _
    | ⟨1, _⟩ => exact (lhs_second_1 _ _).trans hk)
  have er : dot_S128x2048_S2048x2048_S128x2048_1_0_0_1_n_n.rhsIdx (ix2 r c) ((contrEquiv1 dot_S128x2048_S2048x2048_S128x2048_1_0_0_1_n_n 2048 rfl rfl).symm k) = ix2 k c := funext fun a => Fin.ext (by
    match a with
    | ⟨0, _⟩ => exact (rhs_second_0 _ _).trans hk
    | ⟨1, _⟩ => exact rhs_second_1 _ _)
  rw [el, er]

/-! ## The blocks' unit axis, and the two halves of the projected row -/

/-- A [1, a, b] block viewed [a, b] reads (0, p, q) at (p, q). -/
theorem token_view_apply {α : Type} (v : S1x128x2048.Idx → α) (p : Fin 128) (q : Fin 2048) :
    shapeCast S128x2048 v shapeCasts_S1x128x2048_S128x2048 (ix2 p q) = v (ix3 (0 : Fin 1) p q) :=
  shapeCast_apply v shapeCasts_S1x128x2048_S128x2048 (ix2 p q) (ix3 (0 : Fin 1) p q)
    (by rewrite [Shape.rowMajor_val_three, Shape.rowMajor_val_two]; show (0 * 128 + p.val) * 2048 + q.val = p.val * 2048 + q.val; omega)
theorem gate_up_view_apply {α : Type} (v : S1x2048x4096.Idx → α) (p : Fin 2048) (q : Fin 4096) :
    shapeCast S2048x4096 v shapeCasts_S1x2048x4096_S2048x4096 (ix2 p q) = v (ix3 (0 : Fin 1) p q) :=
  shapeCast_apply v shapeCasts_S1x2048x4096_S2048x4096 (ix2 p q) (ix3 (0 : Fin 1) p q)
    (by rewrite [Shape.rowMajor_val_three, Shape.rowMajor_val_two]; show (0 * 2048 + p.val) * 4096 + q.val = p.val * 4096 + q.val; omega)
theorem down_view_apply {α : Type} (v : S1x2048x2048.Idx → α) (p : Fin 2048) (q : Fin 2048) :
    shapeCast S2048x2048 v shapeCasts_S1x2048x2048_S2048x2048 (ix2 p q) = v (ix3 (0 : Fin 1) p q) :=
  shapeCast_apply v shapeCasts_S1x2048x2048_S2048x2048 (ix2 p q) (ix3 (0 : Fin 1) p q)
    (by rewrite [Shape.rowMajor_val_three, Shape.rowMajor_val_two]; show (0 * 2048 + p.val) * 2048 + q.val = p.val * 2048 + q.val; omega)
/-- The [a, b] result stored as a [1, a, b] block reads (p, q) at (0, p, q). -/
theorem stored_view_apply {α : Type} (v : S128x2048.Idx → α) (p : Fin 128) (q : Fin 2048) :
    shapeCast S1x128x2048 v shapeCasts_S128x2048_S1x128x2048 (ix3 (0 : Fin 1) p q) = v (ix2 p q) :=
  shapeCast_apply v shapeCasts_S128x2048_S1x128x2048 (ix3 (0 : Fin 1) p q) (ix2 p q)
    (by rewrite [Shape.rowMajor_val_three, Shape.rowMajor_val_two]; show p.val * 2048 + q.val = (0 * 128 + p.val) * 2048 + q.val; omega)

/-- The slice at offset 0 keeps the gate columns, -/
theorem gate_half_apply {α : Type} (v : S128x4096.Idx → α) (p : Fin 128) (i : Fin 2048) :
    extractStridedSlice S128x2048 ![0, 0] v slices_S128x4096_o0_0_S128x2048 (ix2 p i) = v (ix2 p (gateCol i)) :=
  extractStridedSlice_apply ![0, 0] v slices_S128x4096_o0_0_S128x2048 (ix2 p i) (ix2 p (gateCol i)) (fun a => match a with
    | ⟨0, _⟩ => by show p.val = 0 + p.val; omega
    | ⟨1, _⟩ => by show i.val = 0 + i.val; omega)
/-- and the slice at offset 2048 the up columns. -/
theorem up_half_apply {α : Type} (v : S128x4096.Idx → α) (p : Fin 128) (i : Fin 2048) :
    extractStridedSlice S128x2048 ![0, 2048] v slices_S128x4096_o0_2048_S128x2048 (ix2 p i) = v (ix2 p (upCol i)) :=
  extractStridedSlice_apply ![0, 2048] v slices_S128x4096_o0_2048_S128x2048 (ix2 p i) (ix2 p (upCol i)) (fun a => match a with
    | ⟨0, _⟩ => by show p.val = 0 + p.val; omega
    | ⟨1, _⟩ => by show 2048 + i.val = 2048 + i.val; omega)

/-! ## The stored block -/

/-- Row r of the token block projected by the expert's gate-and-up block, at column f. -/
def blockProj (x0 : FVec Ideal S1x128x2048 .bf16) (x1 : FVec Ideal S1x2048x4096 .bf16) (r : Fin 128) (f : Fin 4096) : EReal :=
  ∑ k : Fin 2048, x0 (ix3 (0 : Fin 1) r k) * x1 (ix3 (0 : Fin 1) k f)

/-- What the body stores at (0, r, c), from the three loaded blocks. -/
theorem stored_apply (x0 : FVec Ideal S1x128x2048 .bf16) (x1 : FVec Ideal S1x2048x4096 .bf16) (x2 : FVec Ideal S1x2048x2048 .bf16)
    (r : Fin 128) (c : Fin 2048) :
    k0_pay1 (F := Ideal) x0 x1 x2 (ix3 (0 : Fin 1) r c)
      = ∑ i : Fin 2048, (blockProj x0 x1 r (upCol i) * (blockProj x0 x1 r (gateCol i) * Ideal.logistic (blockProj x0 x1 r (gateCol i))))
          * x2 (ix3 (0 : Fin 1) i c) := by
  unfold k0_pay1
  rw [stored_view_apply, second_product_apply]
  refine Finset.sum_congr rfl fun i _ => ?_
  rw [down_view_apply]
  congr 1
  have hp : ∀ f : Fin 4096, matmul dot_S128x2048_S2048x4096_S128x4096_1_0_0_1_n_n none (shapeCast S128x2048 x0 shapeCasts_S1x128x2048_S128x2048)
      (shapeCast S2048x4096 x1 shapeCasts_S1x2048x4096_S2048x4096) (constant (F := Ideal) S128x4096 .f32 0x00000000#32) (ix2 r f)
        = blockProj x0 x1 r f := fun f => by
    rw [first_product_apply]
    unfold blockProj
    refine Finset.sum_congr rfl fun k _ => ?_
    rw [token_view_apply, gate_up_view_apply]
  simp only [truncf_apply, mulf_apply, logistic, Ideal.logistic_def, gate_half_apply, up_half_apply, hp]

end Cert.KernelIdeal.Layer

end
-- ==== Proof.KernelArray.lean ====
/-
  From grid points to the whole result.

  The grid has 16 × 8 points; point t works for expert t / 8 on the 128 token rows (t % 8) · 128 … (t % 8) · 128 + 127
  of that expert, with the expert's whole gate-and-up and down weight blocks. So what point t writes back is the
  block of `ExpertLayer.out` at those rows, the 128 blocks tile the [16, 1024, 2048] result, and the program's last
  line flattens it to [16384, 2048].
-/
import proofs.«131763_j37589553774969_1_alg».proof.Proof.Gen.KernelIdeal.Frame
import proofs.«131763_j37589553774969_1_alg».proof.Proof.KernelBlock
import Idealize.ShloMosaic.Lib.Pipeline.Value
import Idealize.ShloMosaic.Lib.StableHlo.Run

set_option maxRecDepth 16384

noncomputable section

open scoped BigOperators

namespace Cert.KernelIdeal.Layer

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.ExpertLayer

variable (m : (ℓ : Loc nD τ sig) → Buf (Elt Ideal) ℓ) (ρ : Dev nD → PrngReg)

/-! ## The arrays as the region finds them -/

/-- The token array, regrouped by expert (the change of float format is the identity). -/
theorem entry_tokens (c : Dev nD) :
    (V m c main_v1 : S16x1024x2048.Idx → EReal)
      = shapeCast S16x1024x2048 (m ((c : Thread nD τ).loc main_arg0)) shapeCasts_S16384x2048_S16x1024x2048 := by
  show StableHlo.after hostOps0 (fun b => m (c, b)) (Proc.devRef .tc main_v1) = _
  after_results
  rfl

/-- The gate-and-up weights, as launched. -/
theorem entry_gate_up (c : Dev nD) :
    (V m c main_v2 : S16x2048x4096.Idx → EReal) = m ((c : Thread nD τ).loc main_arg1) := by
  show StableHlo.after hostOps0 (fun b => m (c, b)) (Proc.devRef .tc main_v2) = _
  after_results
  rfl

/-- The down weights, as launched. -/
theorem entry_down (c : Dev nD) :
    (V m c main_v3 : S16x2048x2048.Idx → EReal) = m ((c : Thread nD τ).loc main_arg2) := by
  show StableHlo.after hostOps0 (fun b => m (c, b)) (Proc.devRef .tc main_v3) = _
  after_results
  rfl

/-! ## Which block each window holds at a point -/

/-- The printed index maps over the 128 points: the expert is t / 8, the row block t % 8, and the weight windows stay on
    the expert's block. -/
theorem block_index : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = t.val % 8 ∧ win0_3.index t (2 : Fin 3) = 0 :=
  (by decide +kernel : ∀ t : Fin grid0.N, _)

/-- The expert grid point t works for, -/
def expertOf (t : Fin cfg0.N) : Fin 16 := ⟨t.val / 8, by have := t.isLt; have hN : cfg0.N = 128 := N_0; omega⟩
/-- and the token row, within that expert, of row r of the point's block. -/
def rowOf (t : Fin cfg0.N) (r : Fin 128) : Fin 1024 := ⟨t.val % 8 * 128 + r.val, by have := r.isLt; omega⟩

/-- The token block at point t is rows `rowOf t ·` of expert `expertOf t`. -/
theorem token_block_apply (c : Dev nD) (t : Fin cfg0.N) (r : Fin 128) (k : Fin 2048) :
    (iblk m c 0 t : FVec Ideal S1x128x2048 .bf16) (ix3 (0 : Fin 1) r k)
      = (V m c main_v1 : S16x1024x2048.Idx → EReal) (ix3 (expertOf t) (rowOf t r) k) := by
  obtain ⟨h0, h1, h2, -⟩ := block_index t
  unfold iblk
  rw [View.read_apply]
  show V m c main_v1 _ = V m c main_v1 _
  refine congrArg (V m c main_v1 : S16x1024x2048.Idx → EReal) ?_
  funext a
  apply Fin.ext
  match a with
  | ⟨0, _⟩ => show win0_0.index t 0 * 1 + 1 * 0 = t.val / 8; omega
  | ⟨1, _⟩ => show win0_0.index t 1 * 128 + 1 * r.val = t.val % 8 * 128 + r.val; omega
  | ⟨2, _⟩ => show win0_0.index t 2 * 2048 + 1 * k.val = k.val; omega

/-- The gate-and-up block at point t is the whole block of expert `expertOf t`. -/
theorem gate_up_block_apply (c : Dev nD) (t : Fin cfg0.N) (k : Fin 2048) (f : Fin 4096) :
    (iblk m c 1 t : FVec Ideal S1x2048x4096 .bf16) (ix3 (0 : Fin 1) k f)
      = (V m c main_v2 : S16x2048x4096.Idx → EReal) (ix3 (expertOf t) k f) := by
  obtain ⟨-, -, -, h0, h1, h2, -⟩ := block_index t
  unfold iblk
  rw [View.read_apply]
  show V m c main_v2 _ = V m c main_v2 _
  refine congrArg (V m c main_v2 : S16x2048x4096.Idx → EReal) ?_
  funext a
  apply Fin.ext
  match a with
  | ⟨0, _⟩ => show win0_1.index t 0 * 1 + 1 * 0 = t.val / 8; omega
  | ⟨1, _⟩ => show win0_1.index t 1 * 2048 + 1 * k.val = k.val; omega
  | ⟨2, _⟩ => show win0_1.index t 2 * 4096 + 1 * f.val = f.val; omega

/-- The down block at point t is the whole block of expert `expertOf t`. -/
theorem down_block_apply (c : Dev nD) (t : Fin cfg0.N) (i : Fin 2048) (q : Fin 2048) :
    (iblk m c 2 t : FVec Ideal S1x2048x2048 .bf16) (ix3 (0 : Fin 1) i q)
      = (V m c main_v3 : S16x2048x2048.Idx → EReal) (ix3 (expertOf t) i q) := by
  obtain ⟨-, -, -, -, -, -, h0, h1, h2, -⟩ := block_index t
  unfold iblk
  rw [View.read_apply]
  show V m c main_v3 _ = V m c main_v3 _
  refine congrArg (V m c main_v3 : S16x2048x2048.Idx → EReal) ?_
  funext a
  apply Fin.ext
  match a with
  | ⟨0, _⟩ => show win0_2.index t 0 * 1 + 1 * 0 = t.val / 8; omega
  | ⟨1, _⟩ => show win0_2.index t 1 * 2048 + 1 * i.val = i.val; omega
  | ⟨2, _⟩ => show win0_2.index t 2 * 2048 + 1 * q.val = q.val; omega

/-- Where entry (0, r, q) of the block point t writes back sits in the result. -/
theorem out_block_index (t : Fin cfg0.N) (r : Fin 128) (q : Fin 2048) :
    ((cfg0.win 3).blk t).view.emb (ix3 (0 : Fin 1) r q) = ix3 (expertOf t) (rowOf t r) q := by
  obtain ⟨-, -, -, -, -, -, -, -, -, h0, h1, h2⟩ := block_index t
  funext a
  apply Fin.ext
  match a with
  | ⟨0, _⟩ => show win0_3.index t 0 * 1 + 1 * 0 = t.val / 8; omega
  | ⟨1, _⟩ => show win0_3.index t 1 * 128 + 1 * r.val = t.val % 8 * 128 + r.val; omega
  | ⟨2, _⟩ => show win0_3.index t 2 * 2048 + 1 * q.val = q.val; omega

/-- A block row's projection is the expert's projection of that token. -/
theorem block_proj_eq (c : Dev nD) (t : Fin cfg0.N) (r : Fin 128) (f : Fin 4096) :
    blockProj (iblk m c 0 t) (iblk m c 1 t) r f
      = proj (V m c main_v1) (V m c main_v2) (expertOf t) (rowOf t r) f := by
  unfold blockProj proj
  exact Finset.sum_congr rfl fun k _ => congrArg₂ (· * ·) (token_block_apply m c t r k) (gate_up_block_apply m c t k f)

/-! ## What a point writes back, and the whole array -/

theorem zero_offsets : (![0, 0, 0] : Fin 3 → Nat) = fun _ => 0 := funext fun a => by fin_cases a <;> rfl

/-- Point t writes back the block of `out` at its rows. -/
theorem flushed_eq (c : Dev nD) (t : Fin cfg0.N) :
    (dats m 0 c).flushed 3 t = ((cfg0.win 3).blk t).view.read (Elt Ideal)
      (out (V m c main_v1) (V m c main_v2) (V m c main_v3)) := by
  show (cfg0.win 3).cut (grid0.coords t) ((dats m 0 c).after 3 t) = _
  rw [after0_3]
  unfold out0_3
  rw [View.canon_unit_zero zero_offsets]
  simp only [View.ld_unit_zero (S := S1x128x2048) zero_offsets, View.ld_unit_zero (S := S1x2048x4096) zero_offsets,
    View.ld_unit_zero (S := S1x2048x2048) zero_offsets]
  funext j
  obtain ⟨z, r, q, rfl⟩ : ∃ (z : Fin 1) (r : Fin 128) (q : Fin 2048), j = ix3 z r q := ⟨j 0, j 1, j 2, eq_ix3 j⟩
  obtain rfl : z = 0 := Subsingleton.elim _ _
  show k0_pay1 (F := Ideal) (iblk m c 0 t) (iblk m c 1 t) (iblk m c 2 t) (ix3 (0 : Fin 1) r q)
    = out (V m c main_v1) (V m c main_v2) (V m c main_v3) (((cfg0.win 3).blk t).view.emb (ix3 (0 : Fin 1) r q))
  rw [out_block_index]
  refine (stored_apply (iblk m c 0 t) (iblk m c 1 t) (iblk m c 2 t) r q).trans ?_
  unfold out
  refine Finset.sum_congr rfl fun i _ => ?_
  unfold ExpertLayer.hidden
  rw [block_proj_eq, block_proj_eq]
  exact congrArg _ (down_block_apply m c t i q)

/-- An index of the result is in point t's block iff each coordinate is in the block's range. -/
theorem mem_block (t : Fin cfg0.N) (i : S16x1024x2048.Idx) :
    i ∈ ((cfg0.win 3).blk t).view.set ↔ ∀ a : Fin 3, win0_3.index t a * S1x128x2048.size a ≤ (i a).val
      ∧ (i a).val < win0_3.index t a * S1x128x2048.size a + S1x128x2048.size a := by
  show i ∈ ((View.whole main_v4).slice (win0_3.rect t)).set ↔ _
  rw [View.set_slice_whole, Rect.mem_set_unit]
  exact Iff.rfl

/-- The blocks tile the result: entry (e, s, q) is in the block of point 8 e + s / 128. -/
theorem covered (i : S16x1024x2048.Idx) :
    ∃ t : Fin cfg0.N, (cfg0.win 3).flush t = true ∧ i ∈ ((cfg0.win 3).blk t).view.set := by
  have b0 : (i 0).val < 16 := (i 0).isLt
  have b1 : (i 1).val < 1024 := (i 1).isLt
  have b2 : (i 2).val < 2048 := (i 2).isLt
  have hN : cfg0.N = 128 := N_0
  obtain ⟨t, ht⟩ : ∃ t : Fin cfg0.N, t.val = (i 0).val * 8 + (i 1).val / 128 := ⟨⟨_, by omega⟩, rfl⟩
  obtain ⟨-, -, -, -, -, -, -, -, -, e0, e1, e2⟩ := block_index t
  refine ⟨t, flush0_3 t, ?_⟩
  rw [mem_block]
  intro a
  match a with
  | ⟨0, _⟩ => show win0_3.index t 0 * 1 ≤ (i 0).val ∧ (i 0).val < win0_3.index t 0 * 1 + 1; omega
  | ⟨1, _⟩ => show win0_3.index t 1 * 128 ≤ (i 1).val ∧ (i 1).val < win0_3.index t 1 * 128 + 128; omega
  | ⟨2, _⟩ => show win0_3.index t 2 * 2048 ≤ (i 2).val ∧ (i 2).val < win0_3.index t 2 * 2048 + 2048; omega

/-- The result array after the region is `out` of the three arrays the region found. -/
theorem final_array (c : Dev nD) :
    (dats m 0 c).arrAt 3 cfg0.N = out (V m c main_v1) (V m c main_v2) (V m c main_v3) :=
  (dats m 0 c).arrAt_eq_of_cover 3 _ (fun t _ => flushed_eq m c t) covered

/-! ## The program's last line, and the run -/

/-- The result buffer: the region's result flattened, which is `layer` of the three arguments. -/
theorem result_buffer (c : Dev nD) :
    Pipeline.afterTail₀ cfgs (dats m) 0 (V0 m) [hostOps1] c main_v5
      = layer shapeCasts_S16384x2048_S16x1024x2048 shapeCasts_S16x1024x2048_S16384x2048
          (m ((c : Thread nD τ).loc main_arg0)) (m ((c : Thread nD τ).loc main_arg1)) (m ((c : Thread nD τ).loc main_arg2)) := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v4)
      = out (V m c main_v1) (V m c main_v2) (V m c main_v3) :=
    (Pipeline.withArrays_arr spec0 launch0.win.arr_inj c _ _ 3).trans (final_array m c)
  rw [hw, entry_tokens, entry_gate_up, entry_down]
  rfl

/-- Every weakly fair execution of the kernel's program ends with the result buffer at `layer` of the three arguments,
    the arguments as launched. -/
theorem run : θ_run defs (onTc (τ := τ) (main (F := Ideal))) ⟨m, fun _ => 0, ρ⟩ (fun r => ∀ c : Dev nD,
      r.2.mem ((c.tc : Thread nD τ).loc main_v5)
        = layer shapeCasts_S16384x2048_S16x1024x2048 shapeCasts_S16x1024x2048_S16384x2048
            (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v5 (Pipeline.mem_restRefs_of main_v5 (by decide) (by decide))).trans (result_buffer m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Layer

end
-- ==== Proof.ReferenceSide.lean ====
/-
  The reference computes the expert layer: its second contraction, read entry by entry, is `ExpertLayer.out` of the
  regrouped token array and the two weight arrays.

  The first contraction at (e, t, f) is the projection `proj … e t f`; its two slices are the gate columns f < 2048 and the
  up columns f ≥ 2048; silu is spelt g · (1 / (1 + e^(-g))), which is g · σ(g); the product with the up half is the
  hidden activation; and the second contraction sums it against the down weights.
-/
import proofs.«131763_j37589553774969_1_alg».proof.Proof.Gen.ReferenceIdeal.Read
import proofs.«131763_j37589553774969_1_alg».proof.Proof.ExpertLayer

noncomputable section

open scoped BigOperators

namespace Cert.ReferenceIdeal.Layer

open Cert.ReferenceIdeal Cert.ReferenceIdeal.Gen Cert.ReferenceIdeal.Read Idealize.ShloMosaic Idealize.ShloMosaic.ValueIdx
open Cert.ExpertLayer

variable (x0 : (⟨S16384x2048, .f32⟩ : BufTy).Contents (Elt Ideal)) (x1 : (⟨S16x2048x4096, .f32⟩ : BufTy).Contents (Elt Ideal))
  (x2 : (⟨S16x2048x2048, .f32⟩ : BufTy).Contents (Elt Ideal))

/-- The first contraction at (e, t, f) is expert e's projection of token t at column f. -/
theorem proj_eq (e : Fin 16) (t : Fin 1024) (f : Fin 4096) :
    val_main_v1 (F := Ideal) x0 x1 (ix3 e t f) = proj (val_main_v0 (F := Ideal) x0) x1 e t f := by
  rw [val_main_v1_apply]
  unfold proj
  refine Finset.sum_congr rfl fun k _ => ?_
  have hl : lidx_main_v1 (ix3 e t f) k = ix3 e t k := funext fun a => by
    match a with | ⟨0, _⟩ => rfl | ⟨1, _⟩ => rfl | ⟨2, _⟩ => rfl
  have hr : ridx_main_v1 (ix3 e t f) k = ix3 e k f := funext fun a => by
    match a with | ⟨0, _⟩ => rfl | ⟨1, _⟩ => rfl | ⟨2, _⟩ => rfl
  rw [hl, hr]

/-- The first slice keeps the gate columns. -/
theorem gate_eq (e : Fin 16) (t : Fin 1024) (i : Fin 2048) :
    val_main_v2 (F := Ideal) x0 x1 (ix3 e t i) = proj (val_main_v0 (F := Ideal) x0) x1 e t (gateCol i) := by
  rw [val_main_v2_apply]
  have h : idx_main_v2 (ix3 e t i) = ix3 e t (gateCol i) := funext fun a => by
    match a with | ⟨0, _⟩ => rfl | ⟨1, _⟩ => rfl | ⟨2, _⟩ => rfl
  rw [h, proj_eq]

/-- The second slice keeps the up columns. -/
theorem up_eq (e : Fin 16) (t : Fin 1024) (i : Fin 2048) :
    val_main_v3 (F := Ideal) x0 x1 (ix3 e t i) = proj (val_main_v0 (F := Ideal) x0) x1 e t (upCol i) := by
  rw [val_main_v3_apply]
  have h : idx_main_v3 (ix3 e t i) = ix3 e t (upCol i) := funext fun a => by
    match a with | ⟨0, _⟩ => rfl | ⟨1, _⟩ => rfl | ⟨2, _⟩ => rfl
  rw [h, proj_eq]

/-- up · silu(gate), with silu spelt g · (1 / (1 + e^(-g))), is the hidden activation. -/
theorem hidden_eq (e : Fin 16) (t : Fin 1024) (i : Fin 2048) :
    val_main_v5 (F := Ideal) x0 x1 (ix3 e t i) = hidden (val_main_v0 (F := Ideal) x0) x1 e t i := by
  rw [val_main_v5_apply, val_main_v4_apply, val_main_call0_v5_apply, val_main_call0_v4_apply, val_main_call0_cst_0_apply,
    val_main_call0_v3_apply, val_main_call0_v2_apply, val_main_call0_cst_apply, val_main_call0_v1_apply,
    val_main_call0_v0_apply, up_eq, gate_eq]
  simp only [Ideal.ofBits_def, one_word, Ideal.mulf_def, Ideal.hostDivf_def, Ideal.addf_def, Ideal.hostUnary_exp_def,
    Ideal.hostNegf_def, Ideal.negf_def]
  rfl

/-- The second contraction is the layer's result on the regrouped tokens. -/
theorem stage_eq : val_main_v6 (F := Ideal) x0 x1 x2 = out (val_main_v0 (F := Ideal) x0) x1 x2 := by
  funext j
  obtain ⟨e, t, c, rfl⟩ : ∃ (e : Fin 16) (t : Fin 1024) (c : Fin 2048), j = ix3 e t c := ⟨j 0, j 1, j 2, eq_ix3 j⟩
  rw [val_main_v6_apply]
  unfold out
  refine Finset.sum_congr rfl fun i _ => ?_
  have hl : lidx_main_v6 (ix3 e t c) i = ix3 e t i := funext fun a => by
    match a with | ⟨0, _⟩ => rfl | ⟨1, _⟩ => rfl | ⟨2, _⟩ => rfl
  have hr : ridx_main_v6 (ix3 e t c) i = ix3 e i c := funext fun a => by
    match a with | ⟨0, _⟩ => rfl | ⟨1, _⟩ => rfl | ⟨2, _⟩ => rfl
  rw [hl, hr, hidden_eq]

/-- The reference's result, flattened back, is `layer` of its three arguments. -/
theorem result_eq : val_main_v7 (F := Ideal) x0 x1 x2
    = layer shapeCasts_S16384x2048_S16x1024x2048 shapeCasts_S16x1024x2048_S16384x2048 x0 x1 x2 := by
  unfold val_main_v7 layer
  rw [stage_eq]
  rfl

end Cert.ReferenceIdeal.Layer

end
-- ==== Proof.lean ====
/-
  A mixture-of-experts feed-forward layer with tokens already sorted by expert: for each of 16 experts, its 1024 tokens
  x[e, t, ·] are projected by the expert's gate-and-up weights, p = x · gu (2048 gate columns, then 2048 up columns), the
  hidden activation is h = up · silu(gate) with silu(g) = g · σ(g), and the result is h · dn.

  The kernel runs a 16 × 8 grid, one expert and 128 token rows per point, each point doing both products whole
  (the shared axis is never split) and storing its [128, 2048] block of the result; the host regroups the token rows by
  expert before and flattens the result after. The reference does the two products as batched contractions with the slices
  and silu between them. Over the extended reals both are the same sums of the same products: `ExpertLayer.layer` of the
  three arguments (Proof/ExpertLayer.lean). The kernel's side is Proof/KernelBlock.lean (one point's arithmetic) and
  Proof/KernelArray.lean (the points tile the result); the reference's is Proof/ReferenceSide.lean. No step uses that the
  inputs are finite: no sum is regrouped and no product distributed, and σ is one function of an extended real however it
  is spelt.
-/
import proofs.«131763_j37589553774969_1_alg».proof.Defs
import proofs.«131763_j37589553774969_1_alg».proof.Proof.Gen.Kernel
import proofs.«131763_j37589553774969_1_alg».proof.Proof.Gen.Kernel.Skeleton
import proofs.«131763_j37589553774969_1_alg».proof.Proof.Gen.Kernel.Launch
import proofs.«131763_j37589553774969_1_alg».proof.Proof.Gen.Kernel.Points
import proofs.«131763_j37589553774969_1_alg».proof.Proof.Gen.Kernel.Frame
import proofs.«131763_j37589553774969_1_alg».proof.Proof.Gen.KernelIdeal
import proofs.«131763_j37589553774969_1_alg».proof.Proof.Gen.KernelIdeal.Skeleton
import proofs.«131763_j37589553774969_1_alg».proof.Proof.Gen.KernelIdeal.Launch
import proofs.«131763_j37589553774969_1_alg».proof.Proof.Gen.KernelIdeal.Points
import proofs.«131763_j37589553774969_1_alg».proof.Proof.Gen.KernelIdeal.Frame
import proofs.«131763_j37589553774969_1_alg».proof.Proof.Gen.ReferenceIdeal
import proofs.«131763_j37589553774969_1_alg».proof.Proof.Gen.ReferenceIdeal.Run
import proofs.«131763_j37589553774969_1_alg».proof.Proof.Gen.ReferenceIdeal.Read
import proofs.«131763_j37589553774969_1_alg».proof.Proof.Gen.Pre_finite_inputs
import proofs.«131763_j37589553774969_1_alg».proof.Proof.ExpertLayer
import proofs.«131763_j37589553774969_1_alg».proof.Proof.KernelArray
import proofs.«131763_j37589553774969_1_alg».proof.Proof.ReferenceSide
import Idealize.ShloMosaic.Adequacy
import Idealize.ShloMosaic.Init

noncomputable section

namespace Cert.Proof

open Idealize.ShloMosaic Idealize.SL.Sem

/-- The kernel as printed runs to the end and leaves its arguments alone. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the result buffer at `ExpertLayer.layer` of arguments that agree. -/
theorem algebraic : Cert.algebraic_KernelIdeal_ReferenceIdeal := by
  intro m ρ m' ρ' _ hagree
  refine ⟨_, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.Layer.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
